-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S67108864 : Shape := ⟨1, ![67108864]⟩
abbrev S8192x8192 : Shape := ⟨2, ![8192, 8192]⟩
abbrev S_ : Shape := ⟨0, ![]⟩

class Facts : Prop where
  bcast_S_S67108864 : S_.BroadcastsInDim S67108864 (![] : Fin 0 → Fin S67108864.rank)
  reducesTo_S67108864_S_d0 : S67108864.ReducesTo [0] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S67108864 .f32) (main_arg1 : FVec F S67108864 .f32) (main_arg2 : FVec F S8192x8192 .f32) : IVec S_ 1 :=
  let main_v0 : FVec F S67108864 .f32 := Host.absf main_arg0
  let main_cst : FVec F S_ .f32 := constant S_ .f32 0x7F800000#32
  let main_v1 : FVec F S67108864 .f32 := broadcastInDim S67108864 ![] bcast_S_S67108864 main_cst
  let main_v2 : IVec S67108864 1 := cmpf .olt main_v0 main_v1
  let main_c : IVec S_ 1 := constantI S_ 1 1#1
  let main_v3 : IVec S_ 1 := (fun x v => Host.reduce IntOp.andi x v reducesTo_S67108864_S_d0 h_S_) main_v2 main_c
  let main_v4 : FVec F S67108864 .f32 := Host.absf main_arg1
  let main_cst_0 : FVec F S_ .f32 := constant S_ .f32 0x7F800000#32
  let main_v5 : FVec F S67108864 .f32 := broadcastInDim S67108864 ![] bcast_S_S67108864 main_cst_0
  let main_v6 : IVec S67108864 1 := cmpf .olt main_v4 main_v5
  let main_c_1 : IVec S_ 1 := constantI S_ 1 1#1
  let main_v7 : IVec S_ 1 := (fun x v => Host.reduce IntOp.andi x v reducesTo_S67108864_S_d0 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  main_v13
-- ==== Kernel.lean ====
abbrev S67108864 : Shape := ⟨1, ![67108864]⟩
abbrev S8192x8192 : Shape := ⟨2, ![8192, 8192]⟩
abbrev S1x1 : Shape := ⟨2, ![1, 1]⟩
abbrev S64x8192 : Shape := ⟨2, ![64, 8192]⟩
abbrev S64 : Shape := ⟨1, ![64]⟩
abbrev S64x1 : Shape := ⟨2, ![64, 1]⟩
abbrev S1 : Shape := ⟨1, ![1]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S67108864, .f32⟩
  | .hbm, ⟨1, _⟩ => ⟨S67108864, .f32⟩
  | .hbm, ⟨2, _⟩ => ⟨S8192x8192, .f32⟩
  | .hbm, ⟨3, _⟩ => ⟨S8192x8192, .f32⟩
  | .hbm, ⟨4, _⟩ => ⟨S8192x8192, .f32⟩
  | .hbm, ⟨5, _⟩ => ⟨S1x1, .f32⟩
  | .hbm, ⟨6, _⟩ => ⟨S_, .f32⟩
  | .local _ .vmem, ⟨0, _⟩ => ⟨S64x8192, .f32⟩
  | .local _ .vmem, ⟨1, _⟩ => ⟨S64x8192, .f32⟩
  | .local _ .vmem, ⟨2, _⟩ => ⟨S64x8192, .f32⟩
  | .local _ .vmem, ⟨3, _⟩ => ⟨S64x8192, .f32⟩
  | .local _ .vmem, ⟨4, _⟩ => ⟨S64x8192, .f32⟩
  | .local _ .vmem, ⟨5, _⟩ => ⟨S64x8192, .f32⟩
  | .local _ .vmem, ⟨6, _⟩ => ⟨S1x1, .f32⟩
  | _, _ => ⟨S67108864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S67108864_S8192x8192 : S67108864.ShapeCasts S8192x8192
  inb_S1x1_S1x1_0_0 : ∀ a, (![0, 0] : Fin 2 → Nat) a + S1x1.size a ≤ S1x1.size a
  h_S1x1 : 0 < S1x1.numel
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  natLt_1_32 : 1 < 32
  reduces_S64x8192_S64 : S64x8192.Reduces [1] S64
  shapeCasts_S64_S64x1 : S64.ShapeCasts S64x1
  reduces_S64x1_S1 : S64x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S8192x8192.size a
  hwx0_0 : ∀ i : grid0.Coords, EltTy.bits .f32 = 32 ∨ (Rect.block (s := S8192x8192) S64x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x8192.size a ≤ S8192x8192.size a
  hwx0_1 : ∀ i : grid0.Coords, EltTy.bits .f32 = 32 ∨ (Rect.block (s := S8192x8192) S64x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x8192.size a ≤ S8192x8192.size a
  hwx0_2 : ∀ i : grid0.Coords, EltTy.bits .f32 = 32 ∨ (Rect.block (s := S8192x8192) S64x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_v0) S64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S67108864 : Shape := ⟨1, ![67108864]⟩
abbrev S8192x8192 : Shape := ⟨2, ![8192, 8192]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S67108864, .f32⟩
  | .hbm, ⟨1, _⟩ => ⟨S67108864, .f32⟩
  | .hbm, ⟨2, _⟩ => ⟨S8192x8192, .f32⟩
  | .hbm, ⟨3, _⟩ => ⟨S_, .f32⟩
  | .hbm, ⟨4, _⟩ => ⟨S67108864, .f32⟩
  | .hbm, ⟨5, _⟩ => ⟨S67108864, .i1⟩
  | .hbm, ⟨6, _⟩ => ⟨S8192x8192, .i1⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .i1⟩
  | .hbm, ⟨13, _⟩ => ⟨S8192x8192, .i32⟩
  | .hbm, ⟨14, _⟩ => ⟨S_, .i32⟩
  | .hbm, ⟨15, _⟩ => ⟨S_, .i32⟩
  | .hbm, ⟨16, _⟩ => ⟨S_, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .i1⟩
  | .hbm, ⟨21, _⟩ => ⟨S8192x8192, .i32⟩
  | .hbm, ⟨22, _⟩ => ⟨S_, .i32⟩
  | .hbm, ⟨23, _⟩ => ⟨S_, .i32⟩
  | .hbm, ⟨24, _⟩ => ⟨S_, .f32⟩
  | .hbm, ⟨25, _⟩ => ⟨S_, .f32⟩
  | _, _ => ⟨S67108864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_call0_v0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S_S67108864 : S_.BroadcastsInDim S67108864 (![] : Fin 0 → Fin S67108864.rank)
  shapeCasts_S67108864_S8192x8192 : S67108864.ShapeCasts S8192x8192
  bcast_S_S8192x8192 : S_.BroadcastsInDim S8192x8192 (![] : Fin 0 → Fin S8192x8192.rank)
  natLt_1_32 : 1 < 32
  reducesTo_S8192x8192_S_d0_1 : S8192x8192.ReducesTo [0, 1] S_
  h_S_ : 0 < S_.numel

variable [Facts₀]

class Facts : Prop extends Facts₀ where

variable [Facts]
-- ==== Proof.Pieces.lean ====
/-
  What each control case of the body leaves in the output's [1 × 1] staging buffer, as a value.

  The body stores the output block whole. At the first grid point (case A) it first stores the zero block, reads it
  back, and stores "that + this block's contribution"; at every later point (case B) it reads what the point before
  left and stores "that + this block's contribution". Both stores cover the one-entry block, and every load reads a whole
  buffer, so what is left is the store's value at the blocks the buffers hold: the accumulating value of the three input
  blocks over the zero block (A), or over the running total `xo3` (B). Stated at any float instance.
-/
import proofs.«117484_j8358006358520_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]

/-- The origin of a rank-2 block. -/
theorem hz : (![0, 0] : Fin 2 → Nat) = fun _ => 0 := funext fun a => by fin_cases a <;> rfl

/-- CASE B (every point but the first): over the running total `xo3`, the accumulating value of the three blocks. -/
theorem out_B (c : Dev nD) (i : grid0.Coords) (arg1 : Memref sig .tc .vmem S64x8192 .f32) (harg1 : arg1.IsWhole)
    (arg2 : Memref sig .tc .vmem S64x8192 .f32) (harg2 : arg2.IsWhole) (arg3 : Memref sig .tc .vmem S64x8192 .f32)
    (harg3 : arg3.IsWhole) (arg4 : Memref sig .tc .vmem S1x1 .f32) (harg4 : arg4.IsWhole) (hc0 : ¬cond0_0 i)
    (x0 x1 x2 : Vec F S64x8192 .f32) (xo3 : Vec F S1x1 .f32) :
    out0_B_3 c i arg1 harg1 arg2 harg2 arg3 harg3 arg4 harg4 hc0 x0 x1 x2 xo3 = k0_pay2 x0 x2 x1 xo3 := by
  unfold out0_B_3
  rw [View.read_writes_eq_canon _ _ _ (cover0_B_3 c i arg1 harg1 arg2 harg2 arg3 harg3 arg4 harg4 hc0 x0 x1 x2 xo3)]
  unfold kernelRun0_B
  dsimp only
  sl_unfold_words
  rw [View.canon_unit_zero hz]
  simp only [View.readAt_eq_ld, harg1.read_unread, harg2.read_unread, harg3.read_unread, harg4.read_unread,
    View.ld_unit_zero (S := S64x8192) hz, View.ld_unit_zero (S := S1x1) hz]

/-- CASE A (the first point): the same over the zero block the reset has just stored. -/
theorem out_A (c : Dev nD) (i : grid0.Coords) (arg1 : Memref sig .tc .vmem S64x8192 .f32) (harg1 : arg1.IsWhole)
    (arg2 : Memref sig .tc .vmem S64x8192 .f32) (harg2 : arg2.IsWhole) (arg3 : Memref sig .tc .vmem S64x8192 .f32)
    (harg3 : arg3.IsWhole) (arg4 : Memref sig .tc .vmem S1x1 .f32) (harg4 : arg4.IsWhole) (hc0 : cond0_0 i)
    (x0 x1 x2 : Vec F S64x8192 .f32) :
    out0_A_3 c i arg1 harg1 arg2 harg2 arg3 harg3 arg4 harg4 hc0 x0 x1 x2 = k0_pay2 x0 x2 x1 (k0_pay1 (F := F)) := by
  unfold out0_A_3
  rw [View.read_writes_eq_canon _ _ _ (cover0_A_3 c i arg1 harg1 arg2 harg2 arg3 harg3 arg4 harg4 hc0 x0 x1 x2)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread,
    View.ld_unit_zero (S := S64x8192) hz, View.ld_unit_zero (S := S1x1) hz]

end Cert.KernelIdeal.Pieces

end
-- ==== Proof.Count.lean ====
/-
  Counting the set bits of a 0/1 mask, two ways.

  A one-bit word `b` has the real value `ind b` (1 when the bit is set, 0 otherwise). Widened to 32 bits and
  converted to a float at the ideal instance it is exactly that real. So

  * a float sum of such converted bits over the rows and columns of a rectangle is the real number
    `total A = ∑ p, ∑ q, ind (A (p, q))`: how many entries of the mask `A` are set;
  * a 32-bit integer sum of the widened bits over a whole [8192 × 8192] mask, converted to a float afterwards, is
    the same real, because the count is at most 2²⁶ and never wraps the signed word.

  Last, the rows of an [8192 × n] mask split into 128 consecutive blocks of 64 rows: the total is the sum of the
  blocks' totals.
-/
import Idealize.ShloMosaic.PureOps.Ideal
import Idealize.ShloMosaic.PureOps.Reduce
import Idealize.ShloMosaic.Lib.ValueIdx
import Idealize.ShloMosaic.Lib.IndicatorCount

noncomputable section

open scoped BigOperators

namespace Cert.SomaCount

open Idealize.ShloMosaic Idealize.ShloMosaic.ValueIdx

/-- The real value of a one-bit word: 1 when set, 0 when clear. -/
def ind (b : BitVec 1) : ℝ := if b = 1#1 then 1 else 0

theorem ind_one : ind 1#1 = 1 := if_pos rfl
theorem ind_zero : ind 0#1 = 0 := if_neg (by decide)

/-- A bit widened to 32 bits and converted (signed) to a float is, at the ideal instance, its real value. -/
theorem sitofp_widen (b : BitVec 1) :
    FloatOps.sitofp (F := Ideal) .f32 (b.setWidth 32) = ((ind b : ℝ) : EReal) := by
  rcases BitVec.eq_zero_or_eq_one b with rfl | rfl
  · show ((((0#1 : BitVec 1).setWidth 32).toInt : ℝ) : EReal) = _
    rw [ind_zero, show ((0#1 : BitVec 1).setWidth 32).toInt = 0 from by decide]; simp
  · show ((((1#1 : BitVec 1).setWidth 32).toInt : ℝ) : EReal) = _
    rw [ind_one, show ((1#1 : BitVec 1).setWidth 32).toInt = 1 from by decide]; simp

/-- The coercion of the reals into the extended reals commutes with finite sums. -/
theorem coe_sum {ι : Type*} (S : Finset ι) (f : ι → ℝ) :
    ((∑ i ∈ S, f i : ℝ) : EReal) = ∑ i ∈ S, ((f i : ℝ) : EReal) := by
  classical
  induction S using Finset.induction_on with
  | empty => simp
  | insert a S ha ih => rw [Finset.sum_insert ha, Finset.sum_insert ha, EReal.coe_add, ih]

/-- How many entries of a rectangular mask are set, as a real: the double sum of the bits' values. -/
def total {n0 n1 : ℕ} (A : (⟨2, ![n0, n1]⟩ : Shape).Idx → BitVec 1) : ℝ :=
  ∑ p : Fin n0, ∑ q : Fin n1, ind (A (ix2 p q))

/-- A double sum of extended reals that are the bits' values is the count. -/
theorem sum_sum_coe_ind {n0 n1 : ℕ} (A : (⟨2, ![n0, n1]⟩ : Shape).Idx → BitVec 1) :
    (∑ p : Fin n0, ∑ q : Fin n1, ((ind (A (ix2 p q)) : ℝ) : EReal)) = ((total A : ℝ) : EReal) := by
  unfold total
  rw [coe_sum]
  exact Finset.sum_congr rfl fun p _ => (coe_sum _ _).symm

/-- The count, as the number of set entries. -/
theorem total_eq_card {n0 n1 : ℕ} (A : (⟨2, ![n0, n1]⟩ : Shape).Idx → BitVec 1) :
    total A = ((Finset.univ.filter fun i => A i = 1#1).card : ℝ) := by
  unfold total
  rw [← sum_idx2 (fun i => ind (A i)), Finset.card_filter]
  push_cast
  exact Finset.sum_congr rfl fun i _ => by unfold ind; split_ifs <;> simp

/-- THE INTEGER SIDE. A 32-bit sum, from zero, of the widened bits of a whole [8192 × 8192] mask, read as a signed
    integer, is the count: at most 2²⁶ entries are set, so the word neither wraps nor turns negative. -/
theorem toInt_reduce_widen (A : IVec ⟨2, ![8192, 8192]⟩ 1) (hw : 1 < 32)
    (h : (⟨2, ![8192, 8192]⟩ : Shape).ReducesTo [0, 1] ⟨0, ![]⟩) (hu : 0 < (⟨0, ![]⟩ : Shape).numel)
    (j : (⟨0, ![]⟩ : Shape).Idx) :
    (((Host.reduce IntOp.addi (extui 32 A hw) (constantI ⟨0, ![]⟩ 32 0#32) h hu j).toInt : ℤ) : ℝ) = total A := by
  classical
  rw [Host.reduce_eq_fold, total_eq_card]
  have hall : (Finset.univ.filter fun i : (⟨2, ![8192, 8192]⟩ : Shape).Idx => h.drop i = j) = Finset.univ :=
    Finset.filter_true_of_mem fun i _ => funext fun b => b.elim0
  rw [hall]
  show (((Finset.univ.fold IntOp.addi (0#32) (fun k => (A k).setWidth 32)).toInt : ℤ) : ℝ) = _
  rw [IndicatorCount.fold_addi_setWidth_eq_card]
  have hle : (Finset.univ.filter fun k => A k = 1#1).card ≤ 67108864 := by
    refine (Finset.card_filter_le _ _).trans (le_of_eq ?_)
    rw [Finset.card_univ, Shape.card_idx]
    simp [Shape.numel, Fin.prod_univ_two]
  have hint : (BitVec.ofNat 32 (Finset.univ.filter fun k => A k = 1#1).card).toInt
      = ((Finset.univ.filter fun k => A k = 1#1).card : ℤ) := by
    generalize (Finset.univ.filter fun k => A k = 1#1).card = n at hle
    have hn : (BitVec.ofNat 32 n).toNat = n := by
      rw [BitVec.toNat_ofNat]; exact Nat.mod_eq_of_lt (by omega)
    rw [BitVec.toInt_eq_toNat_cond, hn]
    split_ifs <;> omega
  rw [hint]
  simp

/-- ROWS IN BLOCKS. A sum over 8192 rows is the sum, over 128 consecutive blocks, of the sums over the 64 rows of
    each block. -/
theorem sum_rows_blocks {M : Type*} [AddCommMonoid M] (H : Fin 8192 → M) :
    ∑ p : Fin 8192, H p = ∑ s : Fin 128, ∑ r : Fin 64, H ⟨64 * s.val + r.val, by omega⟩ := by
  let e : Fin 128 × Fin 64 ≃ Fin 8192 :=
    { toFun := fun x => ⟨64 * x.1.val + x.2.val, by omega⟩
      invFun := fun p => (⟨p.val / 64, by omega⟩, ⟨p.val % 64, by omega⟩)
      left_inv := fun x => by
        apply Prod.ext <;> apply Fin.ext <;> dsimp only <;> omega
      right_inv := fun p => by apply Fin.ext; dsimp only; omega }
  rw [← Equiv.sum_comp e H, Fintype.sum_prod_type]
  rfl

end Cert.SomaCount

end
-- ==== Proof.Bits.lean ====
/-
  The two 0/1 tests of the computation, one element at a time, at the ideal instance.

  `synBit s b`: the synapse after plasticity is positive — the synapse is 1 where the sensory input `s` exceeds 1/2 and
  the stored branch value `b` elsewhere, and the test is "that value > 0".
  `featBit x`: the basal feature `x` is positive.
  The three float constants are kept as their bit patterns (1/2, 1, 0): both programs spell the same words.
-/
import Idealize.ShloMosaic.PureOps.Ideal
import Idealize.ShloMosaic.Lib.ValueIdx

noncomputable section

namespace Cert.SomaCount

open Idealize.ShloMosaic

/-- Is the synapse, after plasticity, positive? -/
def synBit (s b : Ideal .f32) : BitVec 1 :=
  FloatOps.cmpf .ogt
    (Scalar.select (FloatOps.cmpf .ogt s (Ideal.ofBits .f32 0x3F000000#32)) (Ideal.ofBits .f32 0x3F800000#32) b)
    (Ideal.ofBits .f32 0x00000000#32)

/-- Is the basal feature positive? -/
def featBit (x : Ideal .f32) : BitVec 1 := FloatOps.cmpf .ogt x (Ideal.ofBits .f32 0x00000000#32)

end Cert.SomaCount

end
-- ==== Proof.Payload.lean ====
/-
  The accumulating store's value, at the ideal instance.

  At one grid point the body holds three [64 × 8192] blocks — the sensory inputs `x0`, the branch values `x2`, the basal
  features `x1` — and the running [1 × 1] total `prev`. It converts the two 0/1 masks (synapse positive; feature positive)
  to floats, sums each over the lanes and then over the sublanes, and stores `prev + (synapses − features)`.
  Read as extended reals: each converted bit is the real 0 or 1, so each two-stage sum is the number of set entries of its
  mask, a real number; the store is `prev + (count of synapses − count of features)`.
-/
import proofs.«117484_j8358006358520_1_alg».proof.Proof.Gen.KernelIdeal.Skeleton
import proofs.«117484_j8358006358520_1_alg».proof.Proof.Count
import proofs.«117484_j8358006358520_1_alg».proof.Proof.Bits
import Idealize.ShloMosaic.PureOps.Ideal.Laws
import Idealize.ShloMosaic.Lib.Pipeline.Value

noncomputable section

open scoped BigOperators

namespace Cert.KernelIdeal.Payload

open Idealize.ShloMosaic Idealize.ShloMosaic.ValueIdx Cert.KernelIdeal Cert.KernelIdeal.Gen Cert.SomaCount

/-- The synapse mask of a block: entry by entry, `synBit` of the sensory input and the branch value. -/
def synMask {S : Shape} (x0 x2 : S.Idx → Ideal .f32) : S.Idx → BitVec 1 := fun y => synBit (x0 y) (x2 y)
/-- The feature mask of a block. -/
def featMask {S : Shape} (x1 : S.Idx → Ideal .f32) : S.Idx → BitVec 1 := fun y => featBit (x1 y)

/-- Lane sums, then sublane sums, of a [64 × 8192] block, kept as a [1 × 1] block: the double sum over rows and columns. -/
theorem rows_cols_sum (src : FVec Ideal S64x8192 .f32) (h1 : S64x8192.Reduces [1] S64) (c1 : S64.ShapeCasts S64x1)
    (h0 : S64x1.Reduces [0] S1) (c0 : S1.ShapeCasts S1x1) (hφ : FKind.Formats .f32)
    (hacc : (0x00000000#32 : BitVec 32) = FKind.add.neutral .f32 hφ) (j : S1x1.Idx) :
    shapeCast S1x1 (multiReduction .add [0] S1 (shapeCast S64x1 (multiReduction .add [1] S64 src 0x00000000#32 h1 hφ hacc) c1)
        0x00000000#32 h0 hφ hacc) c0 j
      = ∑ r : Fin 64, ∑ q : Fin 8192, src (ix2 r q) := by
  refine (shapeCast_apply _ c0 j (ix1 (0 : Fin 1)) (by
    rw [Shape.rowMajor_val_one, Shape.rowMajor_val_two]
    have a0 : (j 0).val < 1 := (j 0).isLt
    have a1 : (j 1).val < 1 := (j 1).isLt
    show (0 : ℕ) = (j 0).val * 1 + (j 1).val
    omega)).trans ?_
  refine (Ideal.multiReduction_add_single _ 0x00000000#32 h0 hφ hacc (ix1 (0 : Fin 1))).trans ?_
  refine Finset.sum_congr rfl fun r _ => ?_
  refine (shapeCast_apply _ c1 _ (ix1 r) (by
    rw [Shape.rowMajor_val_one, Shape.rowMajor_val_two]
    have e0 : (h0.lift (ix1 (0 : Fin 1)) r 0).val = r.val := rfl
    have e1 : (h0.lift (ix1 (0 : Fin 1)) r 1).val = 0 := rfl
    show r.val = (h0.lift (ix1 (0 : Fin 1)) r 0).val * 1 + (h0.lift (ix1 (0 : Fin 1)) r 1).val
    rw [e0, e1]; omega)).trans ?_
  refine (Ideal.multiReduction_add_single src 0x00000000#32 h1 hφ hacc (ix1 r)).trans ?_
  refine Finset.sum_congr rfl fun q _ => congrArg src ?_
  funext a
  match a with
  | ⟨0, _⟩ => rfl
  | ⟨1, _⟩ => rfl

/-- The same for a mask converted to floats: the number of its set entries. -/
theorem rows_cols_count (A : IVec S64x8192 1) (hw : 1 < 32) (h1 : S64x8192.Reduces [1] S64) (c1 : S64.ShapeCasts S64x1)
    (h0 : S64x1.Reduces [0] S1) (c0 : S1.ShapeCasts S1x1) (hφ : FKind.Formats .f32)
    (hacc : (0x00000000#32 : BitVec 32) = FKind.add.neutral .f32 hφ) (j : S1x1.Idx) :
    shapeCast S1x1 (multiReduction .add [0] S1 (shapeCast S64x1
        (multiReduction .add [1] S64 (sitofp (F := Ideal) .f32 (extui 32 A hw)) 0x00000000#32 h1 hφ hacc) c1)
        0x00000000#32 h0 hφ hacc) c0 j
      = ((total A : ℝ) : EReal) := by
  refine (rows_cols_sum _ h1 c1 h0 c0 hφ hacc j).trans ?_
  refine Eq.trans ?_ (sum_sum_coe_ind A)
  exact Finset.sum_congr rfl fun r _ => Finset.sum_congr rfl fun q _ => sitofp_widen (A (ix2 r q))

/-- THE STORE: the running total plus the block's count of positive synapses minus its count of positive features. -/
theorem pay2_apply (x0 x2 x1 : Vec Ideal S64x8192 .f32) (prev : Vec Ideal S1x1 .f32) (j : S1x1.Idx) :
    k0_pay2 (F := Ideal) x0 x2 x1 prev j
      = prev j + (((total (synMask x0 x2) : ℝ) : EReal) - ((total (featMask x1) : ℝ) : EReal)) := by
  unfold k0_pay2
  dsimp only
  simp only [shapeCast_self]
  show prev j + (_ - _) = _
  refine congrArg₂ (· + ·) rfl (congrArg₂ (· - ·) ?_ ?_)
  · exact rows_cols_count (synMask x0 x2) natLt_1_32 _ _ _ _ _ _ j
  · exact rows_cols_count (featMask x1) natLt_1_32 _ _ _ _ _ _ j

end Cert.KernelIdeal.Payload

end
-- ==== Proof.PartialSums.lean ====
/-
  Running sums. `accSum f n` adds the first `n + 1` values of `f : Fin N → ℝ` one after the other, in order:
  `f 0`, then `+ f 1`, …, `+ f n`. It is the sum of those values.
-/
import Mathlib.Algebra.BigOperators.Fin
import Mathlib.Data.Real.Basic

noncomputable section

open scoped BigOperators

namespace Cert.SomaCount

/-- The first `n + 1` values of `f`, added in order. -/
def accSum {N : ℕ} (f : Fin N → ℝ) : (n : ℕ) → n < N → ℝ
  | 0, h => f ⟨0, h⟩
  | n + 1, h => accSum f n (Nat.lt_of_succ_lt h) + f ⟨n + 1, h⟩

/-- It is their sum. -/
theorem accSum_eq {N : ℕ} (f : Fin N → ℝ) : ∀ (n : ℕ) (h : n < N),
    accSum f n h = ∑ s : Fin (n + 1), f ⟨s.val, lt_of_lt_of_le s.isLt (Nat.succ_le_of_lt h)⟩
  | 0, h => by simp [accSum]
  | n + 1, h => by
    rw [Fin.sum_univ_castSucc, accSum, accSum_eq f n]
    rfl

end Cert.SomaCount

end
-- ==== Proof.Accum.lean ====
/-
  The output block across the grid, at the ideal instance.

  The [1 × 1] output block is never moved: point 0 resets it and adds its block's contribution, every later point adds its
  own. Block `t` contributes the real number "positive synapses in rows 64t … 64t+63, minus positive basal features in
  those rows" (`contrib`). So after point `n` the block holds the running sum of the contributions of points 0 … n, a real
  number: by induction on the point, each step one exact addition of reals.
-/
import proofs.«117484_j8358006358520_1_alg».proof.Proof.Pieces
import proofs.«117484_j8358006358520_1_alg».proof.Proof.Payload
import proofs.«117484_j8358006358520_1_alg».proof.Proof.PartialSums

noncomputable section

open scoped BigOperators

namespace Cert.KernelIdeal.Accum

open Idealize.ShloMosaic Idealize.ShloMosaic.TcCoe Idealize.SL.Sem Idealize.ShloMosaic.ValueIdx
open Cert.KernelIdeal Cert.KernelIdeal.Gen Cert.SomaCount Cert.KernelIdeal.Payload Cert.KernelIdeal.Pieces

variable (m : (ℓ : Loc nD τ sig) → Buf (Elt Ideal) ℓ)

/-- The three input blocks at grid point `t`, by their literal type: sensory inputs, basal features, branch values. -/
abbrev sblk (c : Dev nD) (t : Fin cfg0.N) : Vec Ideal S64x8192 .f32 := iblk m c 0 t
abbrev fblk (c : Dev nD) (t : Fin cfg0.N) : Vec Ideal S64x8192 .f32 := iblk m c 1 t
abbrev bblk (c : Dev nD) (t : Fin cfg0.N) : Vec Ideal S64x8192 .f32 := iblk m c 2 t

/-- Block `t`'s contribution: its positive synapses minus its positive basal features, counted. -/
def contrib (c : Dev nD) (t : Fin cfg0.N) : ℝ :=
  total (synMask (sblk m c t) (bblk m c t)) - total (featMask (fblk m c t))

/-- After point `n` the output block holds the running sum of the contributions of points 0 … n. -/
theorem outsAt_eq (c : Dev nD) : ∀ (n : ℕ) (h : n < cfg0.N),
    outsAt0 m c n h = fun _ => ((accSum (contrib m c) n h : ℝ) : EReal)
  | 0, h => by
    refine (outsAt0_A m c ⟨0, h⟩ rfl).trans ?_
    refine (out_A c _ _ _ _ _ _ _ _ _ _ (sblk m c ⟨0, h⟩) (fblk m c ⟨0, h⟩) (bblk m c ⟨0, h⟩)).trans ?_
    funext j
    refine (pay2_apply (sblk m c ⟨0, h⟩) (bblk m c ⟨0, h⟩) (fblk m c ⟨0, h⟩) _ j).trans ?_
    show Ideal.ofBits .f32 0x00000000#32 + _ = _
    rw [Ideal.ofBits_zero_f32, zero_add, ← EReal.coe_sub]
    rfl
  | n + 1, h => by
    have hN : cfg0.N = 128 := N_0
    have hB : ¬(⟨n + 1, h⟩ : Fin cfg0.N).val % 128 = 0 := by dsimp only; omega
    refine (outsAt0_B m c ⟨n + 1, h⟩ hB).trans ?_
    refine (out_B c _ _ _ _ _ _ _ _ _ _ (sblk m c ⟨n + 1, h⟩) (fblk m c ⟨n + 1, h⟩) (bblk m c ⟨n + 1, h⟩)
      (outsAt0 m c n (Nat.lt_of_succ_lt h))).trans ?_
    funext j
    refine (pay2_apply (sblk m c ⟨n + 1, h⟩) (bblk m c ⟨n + 1, h⟩) (fblk m c ⟨n + 1, h⟩) _ j).trans ?_
    rw [outsAt_eq c n (Nat.lt_of_succ_lt h), ← EReal.coe_sub, ← EReal.coe_add]
    rfl

end Cert.KernelIdeal.Accum

end
-- ==== Proof.Spec.lean ====
/-
  The common value of the two programs: the soma rate, as a real number.

  The 8192 · 8192 sensory inputs and basal features arrive flat; entry (p, q) of their [8192 × 8192] arrangement is the flat
  entry 8192·p + q. The soma rate is the number of positive synapses (after plasticity, against the stored branch values)
  minus the number of positive basal features, over all branches and positions.
-/
import proofs.«117484_j8358006358520_1_alg».proof.Proof.Count
import proofs.«117484_j8358006358520_1_alg».proof.Proof.Bits

noncomputable section

namespace Cert.SomaCount

open Idealize.ShloMosaic Idealize.ShloMosaic.ValueIdx

/-- Where entry (p, q) of the [8192 × 8192] arrangement sits in the flat array. -/
abbrev flat (i : (⟨2, ![8192, 8192]⟩ : Shape).Idx) : (⟨1, ![67108864]⟩ : Shape).Idx :=
  ix1 ⟨(i 0).val * 8192 + (i 1).val, by
    have h0 : (i 0).val < 8192 := (i 0).isLt
    have h1 : (i 1).val < 8192 := (i 1).isLt
    omega⟩

/-- The soma rate: positive synapses minus positive basal features, counted over the whole arrays. -/
def somaRate (x0 x1 : (⟨1, ![67108864]⟩ : Shape).Idx → Ideal .f32) (x2 : (⟨2, ![8192, 8192]⟩ : Shape).Idx → Ideal .f32) : ℝ :=
  total (fun i => synBit (x0 (flat i)) (x2 i)) - total (fun i => featBit (x1 (flat i)))

end Cert.SomaCount

end
-- ==== Proof.BlockReads.lean ====
/-
  Every block is a band of 64 rows of its array, and the contributions add up to the soma rate.

  The two flat inputs are reshaped to [8192 × 8192] before the kernel runs: entry (p, q) is flat entry 8192·p + q. At grid
  point `t` each of the three windows holds rows 64t … 64t+63 of its array, all 8192 columns. So block `t`'s contribution
  is the sum, over those 64 rows, of the row's positive synapses minus the sum of the row's positive features; the 128
  bands tile the 8192 rows, and the contributions of all points add up to the soma rate of the launched arguments.
-/
import proofs.«117484_j8358006358520_1_alg».proof.Proof.Accum
import proofs.«117484_j8358006358520_1_alg».proof.Proof.Spec
import Idealize.ShloMosaic.Lib.Pipeline.Value
import Idealize.ShloMosaic.Lib.StableHlo.Run

noncomputable section

open scoped BigOperators

namespace Cert.KernelIdeal.Bands

open Idealize.ShloMosaic Idealize.ShloMosaic.TcCoe Idealize.SL.Sem Idealize.ShloMosaic.ValueIdx Idealize.ShloMosaic.StableHlo
open Cert.KernelIdeal Cert.KernelIdeal.Gen Cert.SomaCount Cert.KernelIdeal.Payload Cert.KernelIdeal.Accum

variable (m : (ℓ : Loc nD τ sig) → Buf (Elt Ideal) ℓ)

/-- The arguments as launched: the flat sensory inputs, the flat basal features, the branch values. -/
abbrev xs (c : Dev nD) : (⟨S67108864, .f32⟩ : BufTy).Contents (Elt Ideal) := m ((c : Thread nD τ).loc main_arg0)
abbrev xf (c : Dev nD) : (⟨S67108864, .f32⟩ : BufTy).Contents (Elt Ideal) := m ((c : Thread nD τ).loc main_arg1)
abbrev xb (c : Dev nD) : (⟨S8192x8192, .f32⟩ : BufTy).Contents (Elt Ideal) := m ((c : Thread nD τ).loc main_arg2)

/-! ## The arrays the windows read -/

/-- The first window's array is the sensory inputs reshaped. -/
theorem sarr_eq (c : Dev nD) :
    (V m c main_v0 : (⟨S8192x8192, .f32⟩ : BufTy).Contents (Elt Ideal))
      = shapeCast S8192x8192 (xs m c) shapeCasts_S67108864_S8192x8192 := by
  show StableHlo.after hostOps0 (fun b => m (c, b)) (Proc.devRef .tc main_v0) = _
  after_results
  rfl

/-- The second window's array is the basal features reshaped. -/
theorem farr_eq (c : Dev nD) :
    (V m c main_v1 : (⟨S8192x8192, .f32⟩ : BufTy).Contents (Elt Ideal))
      = shapeCast S8192x8192 (xf m c) shapeCasts_S67108864_S8192x8192 := by
  show StableHlo.after hostOps0 (fun b => m (c, b)) (Proc.devRef .tc main_v1) = _
  after_results
  rfl

/-- A reshaped flat array at (p, q) is the flat array at 8192·p + q. -/
theorem reshape_flat (x : (⟨S67108864, .f32⟩ : BufTy).Contents (Elt Ideal)) (i : S8192x8192.Idx) :
    shapeCast S8192x8192 x shapeCasts_S67108864_S8192x8192 i = x (flat i) :=
  shapeCast_apply x shapeCasts_S67108864_S8192x8192 i (flat i) (by
    rw [Shape.rowMajor_val_one, Shape.rowMajor_val_two]
    show (i 0).val * 8192 + (i 1).val = (i 0).val * 8192 + (i 1).val
    rfl)

/-! ## The blocks -/

/-- Each input window's block index at point `t` is (t, 0): decided over the grid. -/
theorem idx_facts : ∀ t : Fin cfg0.N,
    (win0_0.index t 0 = t.val ∧ win0_0.index t 1 = 0) ∧ (win0_1.index t 0 = t.val ∧ win0_1.index t 1 = 0)
      ∧ (win0_2.index t 0 = t.val ∧ win0_2.index t 1 = 0) :=
  (by decide +kernel : ∀ t : Fin grid0.N,
    (win0_0.index t 0 = t.val ∧ win0_0.index t 1 = 0) ∧ (win0_1.index t 0 = t.val ∧ win0_1.index t 1 = 0)
      ∧ (win0_2.index t 0 = t.val ∧ win0_2.index t 1 = 0))

/-- Row `r` of the block at point `t` is row 64t + r of the array. -/
abbrev rowOf (t : Fin cfg0.N) (r : Fin 64) : Fin 8192 :=
  ⟨64 * t.val + r.val, by have h := t.isLt; have hN : cfg0.N = 128 := N_0; omega⟩

theorem sblk_apply (c : Dev nD) (t : Fin cfg0.N) (r : Fin 64) (q : Fin 8192) :
    sblk m c t (ix2 r q) = xs m c (flat (ix2 (rowOf t r) q)) := by
  refine Eq.trans ?_ ((congrFun (sarr_eq m c) _).trans (reshape_flat _ _))
  show iblk m c 0 t (ix2 r q) = _
  unfold iblk
  rw [View.read_apply]
  show V m c main_v0 _ = V m c main_v0 _
  congr 1
  funext a
  apply Fin.ext
  match a with
  | ⟨0, _⟩ => show win0_0.index t 0 * 64 + 1 * r.val = 64 * t.val + r.val; rw [(idx_facts t).1.1]; omega
  | ⟨1, _⟩ => show win0_0.index t 1 * 8192 + 1 * q.val = q.val; rw [(idx_facts t).1.2]; omega

theorem fblk_apply (c : Dev nD) (t : Fin cfg0.N) (r : Fin 64) (q : Fin 8192) :
    fblk m c t (ix2 r q) = xf m c (flat (ix2 (rowOf t r) q)) := by
  refine Eq.trans ?_ ((congrFun (farr_eq m c) _).trans (reshape_flat _ _))
  show iblk m c 1 t (ix2 r q) = _
  unfold iblk
  rw [View.read_apply]
  show V m c main_v1 _ = V m c main_v1 _
  congr 1
  funext a
  apply Fin.ext
  match a with
  | ⟨0, _⟩ => show win0_1.index t 0 * 64 + 1 * r.val = 64 * t.val + r.val; rw [(idx_facts t).2.1.1]; omega
  | ⟨1, _⟩ => show win0_1.index t 1 * 8192 + 1 * q.val = q.val; rw [(idx_facts t).2.1.2]; omega

theorem bblk_apply (c : Dev nD) (t : Fin cfg0.N) (r : Fin 64) (q : Fin 8192) :
    bblk m c t (ix2 r q) = xb m c (ix2 (rowOf t r) q) := by
  refine Eq.trans ?_ (congrFun (V_main_arg2 m c) _)
  show iblk m c 2 t (ix2 r q) = _
  unfold iblk
  rw [View.read_apply]
  show V m c main_arg2 _ = V m c main_arg2 _
  congr 1
  funext a
  apply Fin.ext
  match a with
  | ⟨0, _⟩ => show win0_2.index t 0 * 64 + 1 * r.val = 64 * t.val + r.val; rw [(idx_facts t).2.2.1]; omega
  | ⟨1, _⟩ => show win0_2.index t 1 * 8192 + 1 * q.val = q.val; rw [(idx_facts t).2.2.2]; omega

/-! ## The contributions add up -/

/-- Row `p`'s positive synapses, and its positive basal features, counted. -/
def rowSyn (c : Dev nD) (p : Fin 8192) : ℝ := ∑ q : Fin 8192, ind (synBit (xs m c (flat (ix2 p q))) (xb m c (ix2 p q)))
def rowFeat (c : Dev nD) (p : Fin 8192) : ℝ := ∑ q : Fin 8192, ind (featBit (xf m c (flat (ix2 p q))))

/-- Block `t` contributes its 64 rows' synapses minus its 64 rows' features. -/
theorem contrib_eq (c : Dev nD) (t : Fin cfg0.N) :
    contrib m c t = ∑ r : Fin 64, rowSyn m c (rowOf t r) - ∑ r : Fin 64, rowFeat m c (rowOf t r) := by
  unfold contrib total synMask featMask rowSyn rowFeat
  refine congrArg₂ (· - ·) ?_ ?_
  · refine Finset.sum_congr rfl fun r _ => Finset.sum_congr rfl fun q _ => ?_
    rw [sblk_apply, bblk_apply]
  · refine Finset.sum_congr rfl fun r _ => Finset.sum_congr rfl fun q _ => ?_
    rw [fblk_apply]

/-- The soma rate of the launched arguments. -/
abbrev rate (c : Dev nD) : ℝ := somaRate (xs m c) (xf m c) (xb m c)

/-- The running sum after the last point is the soma rate: the 128 bands of 64 rows tile the 8192 rows. -/
theorem accSum_last (c : Dev nD) (h : 127 < cfg0.N) : accSum (contrib m c) 127 h = rate m c := by
  rw [accSum_eq]
  simp only [contrib_eq]
  rw [Finset.sum_sub_distrib]
  show _ = somaRate (xs m c) (xf m c) (xb m c)
  unfold somaRate total
  refine congrArg₂ (· - ·) ?_ ?_
  · exact (sum_rows_blocks (rowSyn m c)).symm
  · exact (sum_rows_blocks (rowFeat m c)).symm

end Cert.KernelIdeal.Bands

end
-- ==== Proof.KernelValue.lean ====
/-
  The kernel's result, at the ideal instance.

  The output block is written back once, after the last grid point, and it is the whole [1 × 1] result array; the reshape
  after the kernel reads its one entry as a scalar. After the last point the block holds the running sum of all 128
  contributions, which is the soma rate. So the run ends with the scalar result at the soma rate of the launched
  arguments, the arguments unchanged.
-/
import proofs.«117484_j8358006358520_1_alg».proof.Proof.BlockReads

noncomputable section

namespace Cert.KernelIdeal.Result

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.SomaCount Cert.KernelIdeal.Accum Cert.KernelIdeal.Bands

variable (m : (ℓ : Loc nD τ sig) → Buf (Elt Ideal) ℓ) (ρ : Dev nD → PrngReg)

/-- The [1 × 1] result array: its one entry the soma rate. -/
abbrev result (c : Dev nD) : Buf (Elt Ideal) ((c : Thread nD τ).loc main_v2) := fun _ => ((rate m c : ℝ) : EReal)

/-- The output window's block index is (0, 0) at every point, and its block is never cut: decided over the grid. -/
theorem out_facts : ∀ t : Fin cfg0.N,
    (win0_3.index t 0 = 0 ∧ win0_3.index t 1 = 0) ∧ (win0_3.xsize (grid0.coords t) 0 = 1 ∧ win0_3.xsize (grid0.coords t) 1 = 1) :=
  (by decide +kernel : ∀ t : Fin grid0.N,
    (win0_3.index t 0 = 0 ∧ win0_3.index t 1 = 0) ∧ (win0_3.xsize (grid0.coords t) 0 = 1 ∧ win0_3.xsize (grid0.coords t) 1 = 1))

/-- The last grid point. -/
abbrev lastPt : Fin cfg0.N := ⟨127, lt_of_lt_of_eq (by decide : 127 < 128) N_0.symm⟩

/-- The one write-back, after the last point, writes the soma rate. -/
theorem flushed_eq (c : Dev nD) (t : Fin cfg0.N) (hf : (cfg0.win 3).flush t = true) :
    (dats m 0 c).flushed 3 t = ((cfg0.win 3).blk t).view.read (Elt Ideal) (result m c) := by
  have h127 : t.val = 127 := by
    have hN : cfg0.N = 128 := N_0
    have := (flush0_3 t).mp hf; have := t.isLt; omega
  obtain rfl : t = lastPt := Fin.ext h127
  show (cfg0.win 3).cut (grid0.coords lastPt) ((dats m 0 c).after 3 lastPt) = _
  rw [after0_3, outsAt_eq, accSum_last]
  rfl

/-- So the result array ends at the soma rate: the last point's block covers it. -/
theorem final (c : Dev nD) : (dats m 0 c).arrAt 3 cfg0.N = result m c :=
  (dats m 0 c).arrAt_eq_of_cover 3 (result m c) (flushed_eq m c) fun i => by
    refine ⟨lastPt, (flush0_3 lastPt).mpr rfl, ?_⟩
    show i ∈ ((View.whole main_v2).slice (win0_3.rect lastPt)).set
    rw [View.set_slice_whole, Rect.mem_set_unit]
    intro a
    have h0 : (i 0 : Nat) < 1 := (i 0).isLt
    have h1 : (i 1 : Nat) < 1 := (i 1).isLt
    match a with
    | ⟨0, _⟩ =>
      show win0_3.index lastPt 0 * 1 ≤ (i 0 : Nat) ∧ (i 0 : Nat) < win0_3.index lastPt 0 * 1 + win0_3.xsize (grid0.coords lastPt) 0
      rw [(out_facts lastPt).1.1, (out_facts lastPt).2.1]; omega
    | ⟨1, _⟩ =>
      show win0_3.index lastPt 1 * 1 ≤ (i 1 : Nat) ∧ (i 1 : Nat) < win0_3.index lastPt 1 * 1 + win0_3.xsize (grid0.coords lastPt) 1
      rw [(out_facts lastPt).1.2, (out_facts lastPt).2.2]; omega

/-- The scalar the reshape after the kernel leaves: the soma rate. -/
theorem tail_eq (c : Dev nD) :
    Pipeline.afterTail₀ cfgs (dats m) 0 (V0 m) [hostOps1] c main_v3 = fun _ => ((rate m c : ℝ) : EReal) := by
  unfold Pipeline.afterTail₀
  show StableHlo.after hostOps1 _ (Proc.devRef .tc main_v3) = _
  after_results
  funext i
  have e : Pipeline.withArrays (cfgs 0).spec c (V0 m c) (fun w => (dats m 0 c).arrAt w (cfgs 0).N) (Proc.tc.devRef main_v2)
      = result m c := (Pipeline.withArrays_arr spec0 launch0.win.arr_inj c _ _ 3).trans (final m c)
  rw [e]
  rfl

/-- THE RUN: every weakly fair execution ends with the scalar result at the soma rate, the arguments unchanged. -/
theorem run : θ_run defs (onTc (τ := τ) (main (F := Ideal))) ⟨m, fun _ => 0, ρ⟩ fun r => ∀ c : Dev nD,
      r.2.mem ((c.tc : Thread nD τ).loc main_v3) = (fun _ => ((rate m c : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v3 (Pipeline.mem_restRefs_of main_v3 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).1 2).trans (((dats m 0 c).arrAt_in 2 rfl _).trans ((A_eq m c 2).trans (V_main_arg2 m c)))⟩)
    (run_main m ρ)

end Cert.KernelIdeal.Result

end
-- ==== Proof.RefValue.lean ====
/-
  The reference computes the soma rate.

  It compares, selects and compares again entry by entry, widens the two 0/1 masks to 32-bit integers, sums each over the
  whole [8192 × 8192] array in integer arithmetic, converts the two sums to floats and subtracts. The integer sums are the
  counts (they stay far below 2³¹), a converted integer is exactly that integer at the ideal instance, and the two masks are
  the synapse test and the feature test at the flat position of each entry.
-/
import proofs.«117484_j8358006358520_1_alg».proof.Proof.Gen.ReferenceIdeal.Read
import proofs.«117484_j8358006358520_1_alg».proof.Proof.Spec

noncomputable section

namespace Cert.ReferenceIdeal.RefValue

open Idealize.ShloMosaic Idealize.ShloMosaic.ValueIdx
open Cert.ReferenceIdeal Cert.ReferenceIdeal.Gen Cert.ReferenceIdeal.Read Cert.SomaCount

/-- The reshape's source position of entry `i` is its flat position (for the sensory inputs' mask …). -/
theorem idx_v2_flat (i : S8192x8192.Idx) : idx_main_v2 i = flat i :=
  funext fun a => match a with | ⟨0, _⟩ => rfl
/-- (… and for the basal features). -/
theorem idx_v9_flat (i : S8192x8192.Idx) : idx_main_v9 i = flat i :=
  funext fun a => match a with | ⟨0, _⟩ => rfl

/-- The reference's synapse mask is the synapse test at each entry's flat position. -/
theorem syn_mask_eq (x0 : (⟨S67108864, .f32⟩ : BufTy).Contents (Elt Ideal)) (x2 : (⟨S8192x8192, .f32⟩ : BufTy).Contents (Elt Ideal)) :
    val_main_v5 (F := Ideal) x0 x2 = fun i => synBit (x0 (flat i)) (x2 i) := by
  funext i
  rw [val_main_v5_apply, val_main_v3_apply, val_main_v2_apply, val_main_v1_apply, val_main_v0_apply, val_main_cst_apply,
    val_main_call0_v0_apply, val_main_cst_0_apply, val_main_v4_apply, val_main_cst_1_apply, idx_v2_flat]
  rfl

/-- The reference's feature mask is the feature test at each entry's flat position. -/
theorem feat_mask_eq (x1 : (⟨S67108864, .f32⟩ : BufTy).Contents (Elt Ideal)) :
    val_main_v11 (F := Ideal) x1 = fun i => featBit (x1 (flat i)) := by
  funext i
  rw [val_main_v11_apply, val_main_v9_apply, val_main_v10_apply, val_main_cst_2_apply, idx_v9_flat]
  rfl

/-- The reference's result is the soma rate. -/
theorem result_eq (x0 x1 : (⟨S67108864, .f32⟩ : BufTy).Contents (Elt Ideal)) (x2 : (⟨S8192x8192, .f32⟩ : BufTy).Contents (Elt Ideal)) :
    val_main_v15 (F := Ideal) x0 x1 x2 = fun _ => ((somaRate x0 x1 x2 : ℝ) : EReal) := by
  funext i
  have e7 : (((val_main_v7 (F := Ideal) x0 x2 i).toInt : ℤ) : ℝ) = total (val_main_v5 (F := Ideal) x0 x2) :=
    toInt_reduce_widen (val_main_v5 (F := Ideal) x0 x2) natLt_1_32 reducesTo_S8192x8192_S_d0_1 h_S_ i
  have e13 : (((val_main_v13 (F := Ideal) x1 i).toInt : ℤ) : ℝ) = total (val_main_v11 (F := Ideal) x1) :=
    toInt_reduce_widen (val_main_v11 (F := Ideal) x1) natLt_1_32 reducesTo_S8192x8192_S_d0_1 h_S_ i
  show (((((val_main_v7 (F := Ideal) x0 x2 i).toInt : ℤ) : ℝ) : EReal)) - (((((val_main_v13 (F := Ideal) x1 i).toInt : ℤ) : ℝ) : EReal)) = _
  rw [e7, e13, syn_mask_eq, feat_mask_eq, ← EReal.coe_sub]
  rfl

end Cert.ReferenceIdeal.RefValue

end
-- ==== Proof.lean ====
/-
  The soma rate, two ways: the certificate's claims.

  Both programs compute, from 8192 · 8192 sensory inputs `s`, basal features `x` and stored branch values `b`,
      (number of entries where (1 if s > 1/2 else b) > 0)  −  (number of entries where x > 0).
  The reference counts each mask in 32-bit integer arithmetic over the whole [8192 × 8192] array, converts the two counts to
  floats and subtracts. The kernel walks 128 bands of 64 rows; in each it converts the two masks to floats, sums them over
  lanes and then sublanes, and adds "synapses − features" of the band to a one-entry accumulator it resets at the first
  band; the accumulator is written back after the last band and read as a scalar.
  At the ideal instance a converted 0/1 bit is the real 0 or 1 and a converted 32-bit integer is that integer (the counts
  stay below 2³¹), so every intermediate value is a real number, the kernel's accumulator after the last band is the sum
  of the bands' differences, and that sum — the bands tile the rows — is the difference of the two whole-array counts:
  the same real number the reference ends with. No property of the inputs is used: comparisons are defined on every
  extended real, and nothing else touches the inputs.

  The frames of the two kernel programs are their generated frame certificates; the reference's frame is its generated
  run with the result dropped; the ideal pass rewrote nothing, so the idealization claim is trivial.
-/
import proofs.«117484_j8358006358520_1_alg».proof.Defs
import proofs.«117484_j8358006358520_1_alg».proof.Proof.Gen.Kernel
import proofs.«117484_j8358006358520_1_alg».proof.Proof.Gen.Kernel.Skeleton
import proofs.«117484_j8358006358520_1_alg».proof.Proof.Gen.Kernel.Launch
import proofs.«117484_j8358006358520_1_alg».proof.Proof.Gen.Kernel.Points
import proofs.«117484_j8358006358520_1_alg».proof.Proof.Gen.Kernel.Frame
import proofs.«117484_j8358006358520_1_alg».proof.Proof.Gen.KernelIdeal
import proofs.«117484_j8358006358520_1_alg».proof.Proof.Gen.KernelIdeal.Skeleton
import proofs.«117484_j8358006358520_1_alg».proof.Proof.Gen.KernelIdeal.Launch
import proofs.«117484_j8358006358520_1_alg».proof.Proof.Gen.KernelIdeal.Points
import proofs.«117484_j8358006358520_1_alg».proof.Proof.Gen.KernelIdeal.Frame
import proofs.«117484_j8358006358520_1_alg».proof.Proof.Gen.ReferenceIdeal
import proofs.«117484_j8358006358520_1_alg».proof.Proof.Gen.ReferenceIdeal.Run
import proofs.«117484_j8358006358520_1_alg».proof.Proof.Gen.ReferenceIdeal.Read
import proofs.«117484_j8358006358520_1_alg».proof.Proof.Gen.Pre_finite_inputs
import proofs.«117484_j8358006358520_1_alg».proof.Proof.KernelValue
import proofs.«117484_j8358006358520_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal instance both programs end with the scalar result at the soma rate of their (agreeing) arguments. -/
theorem algebraic : Cert.algebraic_KernelIdeal_ReferenceIdeal := by
  intro m ρ m' ρ' _ hagree
  refine ⟨fun c => fun _ => ((Cert.KernelIdeal.Bands.rate m c : ℝ) : EReal), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
